-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Kernel.lean ====
abbrev S8192x512 : Shape := ⟨2, ![8192, 512]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .bf16⟩
  | .hbm, ⟨5, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S8192x512, .bf16⟩
  | .local _ .vmem, ⟨3, _⟩ => ⟨S8192x512, .bf16⟩
  | .local _ .vmem, ⟨4, _⟩ => ⟨S1024x512, .f32⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  v10
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  let v11 : BitVec 32 := v10
  let v12 : Index := Scalar.indexCast v11
  let c0_6 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .bf16 = 32 ∨ (Rect.block (s := S8192x512) S8192x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KernelPiece.lean ====
/-
  What one grid point of the attention kernel leaves in its output block, as a pure function of the blocks it
  loads.

  The body loads a block `q` of 1024 query rows, then visits the 8192 key/value rows in 8 chunks of 1024
  rows (chunk `k` is rows `1024 k … 1024 k + 1023` of the whole key and value arrays, which stay resident),
  carrying a triple (running row maximum, row normaliser, weighted sum of value rows) through the loop, and finally
  stores the weighted sum divided by the normaliser. Here the carried triple is restated as a plain recursion
  `carried` on the trip number over the pure per-trip update `tripFn`, and the stored block is shown to be the
  quotient read off `carried … 8`. Nothing here depends on the float instance.
-/
import proofs.«409672_j69483980915299_3_alg».proof.Proof.Gen.KernelIdeal.Value

set_option maxRecDepth 16384

noncomputable section

namespace Cert.KernelIdeal.Flash

open Cert.KernelIdeal Cert.KernelIdeal.Gen Idealize.ShloMosaic Idealize.ShloMosaic.TcCoe Idealize.SL.Sem

variable {F : FTy → Type} [FloatOps F]

/-- The carried triple: per query row the running maximum and the normaliser, per row and value column the
    weighted sum. -/
abbrev Carry (F : FTy → Type) [FloatOps F] : Type :=
  FVec F S1024x1 .f32 × FVec F S1024x1 .f32 × FVec F S1024x512 .f32

/-- Chunk `k` of a resident key or value array: its rows `1024 k … 1024 k + 1023`. -/
def chunk (X : Vec F S8192x512 .bf16) (k : Fin k0_t1_loop.trips) : Vec F S1024x512 .bf16 :=
  View.ld X (Rect.unit (s := S8192x512) (k0_off1 k) S1024x512.size (k0_off1_inb k))

/-- One trip: the carried triple updated by chunk `k` of the keys `K` and the values `V`. -/
def tripFn (q : Vec F S1024x512 .f32) (K V : Vec F S8192x512 .bf16) (k : Fin k0_t1_loop.trips)
    (acc : Carry F) : Carry F :=
  (k0_pay5 q acc.1 (chunk K k), k0_pay8 q acc.1 acc.2.1 (chunk K k),
    k0_pay9 q acc.1 acc.2.2 (chunk K k) (chunk V k))

/-- The carried triple before trip `n`: maximum `-∞`, normaliser and sums zero before the first. -/
def carried (q : Vec F S1024x512 .f32) (K V : Vec F S8192x512 .bf16) : ℕ → Carry F
  | 0 => (k0_pay1, k0_pay2, k0_pay3)
  | n + 1 => if h : n < k0_t1_loop.trips then tripFn q K V ⟨n, h⟩ (carried q K V n) else carried q K V n

theorem carried_succ (q : Vec F S1024x512 .f32) (K V : Vec F S8192x512 .bf16) (k : Fin k0_t1_loop.trips) :
    carried q K V (k.val + 1) = tripFn q K V k (carried q K V k.val) := by
  rw [carried]; exact dif_pos k.isLt

/-- The loop makes eight trips. -/
theorem trips_eq : k0_t1_loop.trips = 8 := by decide +kernel

variable (𝒱 : Variants) (c : Dev nD) (bd : Option 𝒱.V) (i : grid0.Coords)
  (arg1 : Memref sig .tc .vmem S1024x512 .f32) (harg1 : arg1.IsWhole)
  (arg2 : Memref sig .tc .vmem S8192x512 .bf16) (harg2 : arg2.IsWhole)
  (arg3 : Memref sig .tc .vmem S8192x512 .bf16) (harg3 : arg3.IsWhole)
  (arg4 : Memref sig .tc .vmem S1024x512 .f32) (harg4 : arg4.IsWhole)

/-- What the run found one trip to yield, on whole key and value buffers holding `K` and `V`, is `tripFn`. -/
theorem tripR_eq (q : Vec F S1024x512 .f32) (K V : Vec F S8192x512 .bf16) (k : Fin k0_t1_loop.trips) (acc : Carry F) :
    tripR_k0_t1 (F := F) 𝒱 c bd i arg1 harg1 arg2 harg2 arg3 harg3 arg4 harg4 q (harg2.unread K) (harg3.unread V) k acc
      = tripFn q K V k acc := by
  unfold tripR_k0_t1
  unfold trip_k0_t1
  dsimp only
  simp only [View.readAt_eq_ld, harg2.read_unread, harg3.read_unread]
  rfl

/-- So the carried value the run's recursion holds before trip `n` is `carried`. -/
theorem st_eq (q : Vec F S1024x512 .f32) (K V : Vec F S8192x512 .bf16) (n : ℕ) :
    st_k0_t1 (F := F) 𝒱 c bd i arg1 harg1 arg2 harg2 arg3 harg3 arg4 harg4 q (harg2.unread K) (harg3.unread V)
        (k0_pay1, k0_pay2, k0_pay3) n
      = carried q K V n := by
  induction n with
  | zero => rfl
  | succ n ih =>
    rw [st_k0_t1.eq_2, carried]
    unfold st_k0_t1Step
    by_cases h : n < k0_t1_loop.trips
    · rw [dif_pos h, dif_pos h, ih]; exact tripR_eq 𝒱 c bd i arg1 harg1 arg2 harg2 arg3 harg3 arg4 harg4 q K V ⟨n, h⟩ _
    · rw [dif_neg h, dif_neg h, ih]

theorem zero_off : (![0, 0] : Fin S1024x512.rank → Nat) = fun _ => 0 :=
  funext fun a => by match a with | ⟨0, _⟩ => rfl | ⟨1, _⟩ => rfl

/-- THE OUTPUT BLOCK of one grid point: the weighted sums after the last chunk divided by the normalisers. -/
theorem out_eq (x0 : Vec F S1024x512 .f32) (x1 x2 : Vec F S8192x512 .bf16) :
    out0_A_3 (F := F) c i arg1 harg1 arg2 harg2 arg3 harg3 arg4 harg4 x0 x1 x2
      = k0_pay10 (carried x0 x1 x2 8).2.1 (carried x0 x1 x2 8).2.2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zero_off]
  simp only [View.readAt_eq_ld, harg1.read_unread, View.ld_unit_zero (S := S1024x512) zero_off]
  rw [st_eq]
  rfl

end Cert.KernelIdeal.Flash

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.AttnSpec.lean ====
/-
  Single-head attention without scaling or mask, as ONE function of the three argument arrays, index by index.

  For real arrays `q, k, v` of 8192 rows and 512 columns:
      score r j  = ∑ e, q[r, e] * k[j, e]                        (the scores, query row r against key row j)
      attn r d   = (∑ j, exp (score r j) * v[j, d]) / ∑ j, exp (score r j)
  — the softmax over the key axis applied to the values. It is written without the usual subtraction of the row
  maximum: over the reals the shift cancels, so every shifted way of computing it gives this number.
  The arrays are extended-real valued; `re` takes the real part of an entry, which IS the entry when the array is
  real valued (the inputs are finite).
-/
import Idealize.ShloMosaic.Lib.ValueIdx
import Idealize.ShloMosaic.PureOps.Ideal.Laws
import proofs.«409672_j69483980915299_3_alg».proof.Proof.LibIdealReal

noncomputable section

namespace Attention

open Idealize.ShloMosaic Idealize.ShloMosaic.ValueIdx Cert.Lib

/-- The shape of each argument array and of the result: 8192 rows of 512 entries. -/
abbrev Arr : Shape := ⟨2, ![8192, 512]⟩

/-- The real part of the entry in row `r`, column `e`. -/
def re (x : Arr.Idx → EReal) (r : Fin 8192) (e : Fin 512) : ℝ := (x (ix2 r e)).toReal

/-- Query row `r` against key row `j`. -/
def score (q k : Arr.Idx → EReal) (r j : Fin 8192) : ℝ := ∑ e : Fin 512, re q r e * re k j e

/-- The softmax-weighted average of column `d` of the values, for query row `r`. -/
def attn (q k v : Arr.Idx → EReal) (r : Fin 8192) (d : Fin 512) : ℝ :=
  (∑ j : Fin 8192, Real.exp (score q k r j) * re v j d) / ∑ j : Fin 8192, Real.exp (score q k r j)

/-- The result array. -/
def result (q k v : Arr.Idx → EReal) : Arr.Idx → EReal :=
  fun i => ((attn q k v ⟨(i 0).val, (i 0).isLt⟩ ⟨(i 1).val, (i 1).isLt⟩ : ℝ) : EReal)

theorem result_apply (q k v : Arr.Idx → EReal) (r : Fin 8192) (d : Fin 512) :
    result q k v (ix2 r d) = ((attn q k v r d : ℝ) : EReal) := rfl

/-- An entry of a real-valued array is its real part. -/
theorem coe_re {x : Arr.Idx → EReal} (hx : ∀ i, IsReal (x i)) (r : Fin 8192) (e : Fin 512) :
    ((re x r e : ℝ) : EReal) = x (ix2 r e) := (hx _).coe_toReal

/-- The `f32` pattern `0xFF800000` denotes `-∞`. -/
theorem ofBits_neg_inf : Ideal.ofBits .f32 0xFF800000#32 = ⊥ := by simp [Ideal.ofBits, Ideal.ieee]

end Attention

end
-- ==== Proof.KernelPayloads.lean ====
/-
  The attention kernel's arithmetic read at an index, on the extended reals.

  For a block `q` of 1024 query rows, a chunk `Kc` of 1024 key rows and `Vc` of 1024 value rows, and a carried
  triple `(m, l, a)` (row maxima and normalisers as 1024 × 1 columns, weighted sums as a 1024 × 512 block):
    scores         s[p, j]  = ∑ e, q[p, e] * Kc[j, e]
    new maximum    m'[p]    = max m[p] (max over j, from -∞, of s[p, j])
    rescaling      α[p]     = exp (m[p] - m'[p])
    weights        w[p, j]  = exp (s[p, j] - m'[p])
    new normaliser l'[p]    = α[p] * l[p] + ∑ j, w[p, j]
    new sums       a'[p, d] = α[p] * a[p, d] + ∑ j, w[p, j] * Vc[j, d]
    result         o[p, d]  = a[p, d] / l[p]
  The changes of float format are the identity here, both matrix products start from a zero accumulator, and a row
  reduction kept as a column reads the row's reduction at column 0.
-/
import proofs.«409672_j69483980915299_3_alg».proof.Proof.KernelPiece
import proofs.«409672_j69483980915299_3_alg».proof.Proof.AttnSpec
import Idealize.ShloMosaic.Lib.ValueIdx
import Idealize.ShloMosaic.Lib.Pipeline.Value
import Idealize.ShloMosaic.PureOps.Ideal.Laws

noncomputable section

namespace Cert.KernelIdeal.Flash

open Cert.KernelIdeal Cert.KernelIdeal.Gen Idealize.ShloMosaic Idealize.ShloMosaic.ValueIdx Attention

/-! ## Where the two matrix products read their operands -/

theorem qk_lhs_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem qk_lhs_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem qk_rhs_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem qk_rhs_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

theorem pv_lhs_0 (i : S1024x512.Idx) (k : dot_S1024x1024_S1024x512_S1024x512_1_0_0_1_n_n.contr.Idx) :
    (dot_S1024x1024_S1024x512_S1024x512_1_0_0_1_n_n.lhsIdx i k 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem pv_lhs_1 (i : S1024x512.Idx) (k : dot_S1024x1024_S1024x512_S1024x512_1_0_0_1_n_n.contr.Idx) :
    (dot_S1024x1024_S1024x512_S1024x512_1_0_0_1_n_n.lhsIdx i k 1).val = (k ⟨0, by decide⟩).val :=
  dot_S1024x1024_S1024x512_S1024x512_1_0_0_1_n_n.lhsIdx_val_of_single rfl i k
theorem pv_rhs_0 (i : S1024x512.Idx) (k : dot_S1024x1024_S1024x512_S1024x512_1_0_0_1_n_n.contr.Idx) :
    (dot_S1024x1024_S1024x512_S1024x512_1_0_0_1_n_n.rhsIdx i k 0).val = (k ⟨0, by decide⟩).val :=
  dot_S1024x1024_S1024x512_S1024x512_1_0_0_1_n_n.rhsIdx_val_of_single rfl i k
theorem pv_rhs_1 (i : S1024x512.Idx) (k : dot_S1024x1024_S1024x512_S1024x512_1_0_0_1_n_n.contr.Idx) :
    (dot_S1024x1024_S1024x512_S1024x512_1_0_0_1_n_n.rhsIdx i k 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-! ## Layout: a row reduction kept as a column, and a column spread along the rows -/

/-- A vector of 1024 row results cast to a 1024 × 1 column reads row `p`'s result at `[p, 0]`. -/
theorem column_apply (x : S1024.Idx → EReal) (p : Fin 1024) :
    shapeCast S1024x1 x shapeCasts_S1024_S1024x1 (ix2 p (0 : Fin 1)) = x (ix1 p) :=
  shapeCast_apply x shapeCasts_S1024_S1024x1 (ix2 p (0 : Fin 1)) (ix1 p) (by
    rw [Shape.rowMajor_val_one, Shape.rowMajor_val_two]
    show p.val = p.val * 1 + 0
    omega)

/-- A 1024 × 1 column spread over 1024 columns reads `[p, 0]` at `[p, j]`. -/
theorem spread1024_apply (x : S1024x1.Idx → EReal) (p j : Fin 1024) :
    broadcastTo S1024x1024 x broadcasts_S1024x1_S1024x1024 (ix2 p j) = x (ix2 p (0 : Fin 1)) :=
  broadcastTo_apply x broadcasts_S1024x1_S1024x1024 (ix2 p j) (ix2 p (0 : Fin 1)) (fun a => by
    match a with
    | ⟨0, _⟩ => show p.val = if (1024 : Nat) = 1 then 0 else p.val; rw [if_neg (by decide)]
    | ⟨1, _⟩ => show 0 = if (1 : Nat) = 1 then 0 else j.val; rw [if_pos rfl])

/-- A 1024 × 1 column spread over 512 columns reads `[p, 0]` at `[p, d]`. -/
theorem spread512_apply (x : S1024x1.Idx → EReal) (p : Fin 1024) (d : Fin 512) :
    broadcastTo S1024x512 x broadcasts_S1024x1_S1024x512 (ix2 p d) = x (ix2 p (0 : Fin 1)) :=
  broadcastTo_apply x broadcasts_S1024x1_S1024x512 (ix2 p d) (ix2 p (0 : Fin 1)) (fun a => by
    match a with
    | ⟨0, _⟩ => show p.val = if (1024 : Nat) = 1 then 0 else p.val; rw [if_neg (by decide)]
    | ⟨1, _⟩ => show 0 = if (1 : Nat) = 1 then 0 else d.val; rw [if_pos rfl])

/-- Inserting column `j` into the row index `p` of a 1024 × 1024 block gives `[p, j]`. -/
theorem lift_row (p j : Fin 1024) :
    reduces_S1024x1024_S1024.lift (ix1 p) j = ix2 p j :=
  funext fun a => Fin.ext (by match a with | ⟨0, _⟩ => rfl | ⟨1, _⟩ => rfl)

/-- A row maximum from `-∞` over the 1024 columns of a block, at row `p`. -/
theorem rowmax_red (src : FVec Ideal S1024x1024 .f32) (hφ : FKind.Formats .f32)
    (hacc : (0xFF800000#32 : BitVec 32) = 0xFF800000#32) (p : Fin 1024) :
    multiReduction .maximumf [1] S1024 src 0xFF800000#32 reduces_S1024x1024_S1024 hφ hacc (ix1 p)
      = (Finset.univ : Finset (Fin 1024)).fold max ⊥ (fun j : Fin 1024 => src (ix2 p j)) := by
  have hf : (src ∘ reduces_S1024x1024_S1024.lift (ix1 p)) = fun j : Fin 1024 => src (ix2 p j) :=
    funext fun j : Fin 1024 => by
      show src (reduces_S1024x1024_S1024.lift (ix1 p) j) = _
      rw [lift_row]
  refine (Ideal.multiReduction_maximumf_single src 0xFF800000#32 reduces_S1024x1024_S1024 hφ hacc (ix1 p)).trans ?_
  rw [Ideal.ofBits_def, ofBits_neg_inf, hf]
  rfl

/-- A row sum over the 1024 columns of a block, at row `p`. -/
theorem rowsum_red (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ j : Fin 1024, src (ix2 p j) := by
  refine (Ideal.multiReduction_add_single src 0x00000000#32 reduces_S1024x1024_S1024 hφ hacc (ix1 p)).trans ?_
  exact Finset.sum_congr rfl fun j _ => congrArg src (lift_row p j)

/-! ## The payloads -/

section Payloads

variable (q Kc Vc : S1024x512.Idx → EReal) (m l : S1024x1.Idx → EReal) (a : S1024x512.Idx → EReal)

/-- The scores of the query block against one chunk of keys. -/
theorem scores_apply (p j : Fin 1024) :
    k0_pay4 (F := Ideal) q Kc (ix2 p j) = ∑ e : Fin 512, q (ix2 p e) * Kc (ix2 j e) := by
  unfold k0_pay4
  simp only [matmul]
  rw [Ideal.matmul_constant_zero_apply, shapeCast_self,
    ← Equiv.sum_comp (contrEquiv1 dot_S1024x512_S1024x512_S1024x1024_1_1_0_0_n_n 512 rfl rfl).symm]
  refine Finset.sum_congr rfl fun e _ => ?_
  have hk := contrEquiv1_symm_val dot_S1024x512_S1024x512_S1024x1024_1_1_0_0_n_n 512 rfl rfl e
  have el : dot_S1024x512_S1024x512_S1024x1024_1_1_0_0_n_n.lhsIdx (ix2 p j) ((contrEquiv1 dot_S1024x512_S1024x512_S1024x1024_1_1_0_0_n_n 512 rfl rfl).symm e) = ix2 p e := funext fun a => Fin.ext (by
    match a with
    | ⟨0, _⟩ => exact qk_lhs_0 _ _
    | ⟨1, _⟩ => exact (qk_lhs_1 _ _).trans hk)
  have er : dot_S1024x512_S1024x512_S1024x1024_1_1_0_0_n_n.rhsIdx (ix2 p j) ((contrEquiv1 dot_S1024x512_S1024x512_S1024x1024_1_1_0_0_n_n 512 rfl rfl).symm e) = ix2 j e := funext fun a => Fin.ext (by
    match a with
    | ⟨0, _⟩ => exact qk_rhs_0 _ _
    | ⟨1, _⟩ => exact (qk_rhs_1 _ _).trans hk)
  rw [el, er]
  rfl

/-- The new running maximum of row `p`. -/
theorem rowmax_apply (p : Fin 1024) :
    k0_pay5 (F := Ideal) q m Kc (ix2 p (0 : Fin 1))
      = max (m (ix2 p (0 : Fin 1)))
          ((Finset.univ : Finset (Fin 1024)).fold max ⊥ (fun j : Fin 1024 => k0_pay4 (F := Ideal) q Kc (ix2 p j))) := by
  unfold k0_pay5
  refine (maximumf_apply _ _ _).trans ?_
  refine congrArg (max (m (ix2 p (0 : Fin 1)))) ((column_apply _ p).trans ?_)
  exact rowmax_red (k0_pay4 (F := Ideal) q Kc) _ _ p

/-- The factor that rescales what row `p` has accumulated to the new maximum. -/
theorem rescale_apply (p : Fin 1024) :
    k0_pay6 (F := Ideal) q m Kc (ix2 p (0 : Fin 1))
      = Ideal.exp (m (ix2 p (0 : Fin 1)) - k0_pay5 (F := Ideal) q m Kc (ix2 p (0 : Fin 1))) := rfl

/-- The unnormalised weights of the chunk. -/
theorem weights_apply (p j : Fin 1024) :
    k0_pay7 (F := Ideal) q m Kc (ix2 p j)
      = Ideal.exp (k0_pay4 (F := Ideal) q Kc (ix2 p j) - k0_pay5 (F := Ideal) q m Kc (ix2 p (0 : Fin 1))) := by
  unfold k0_pay7
  show Ideal.exp (k0_pay4 (F := Ideal) q Kc (ix2 p j) - broadcastTo S1024x1024 _ broadcasts_S1024x1_S1024x1024 (ix2 p j)) = _
  rw [spread1024_apply]

/-- The new normaliser of row `p`. -/
theorem normaliser_apply (p : Fin 1024) :
    k0_pay8 (F := Ideal) q m l Kc (ix2 p (0 : Fin 1))
      = k0_pay6 (F := Ideal) q m Kc (ix2 p (0 : Fin 1)) * l (ix2 p (0 : Fin 1))
        + ∑ j : Fin 1024, k0_pay7 (F := Ideal) q m Kc (ix2 p j) := by
  unfold k0_pay8
  show k0_pay6 (F := Ideal) q m Kc (ix2 p (0 : Fin 1)) * l (ix2 p (0 : Fin 1))
      + shapeCast S1024x1 _ shapeCasts_S1024_S1024x1 (ix2 p (0 : Fin 1)) = _
  rw [column_apply, rowsum_red]

/-- The weights times a chunk of values, into a zero accumulator: a plain sum over the chunk's rows. -/
theorem pv_apply (W : FVec Ideal S1024x1024 .bf16) (Vb : FVec Ideal S1024x512 .bf16) (p : Fin 1024) (d : Fin 512) :
    matmul dot_S1024x1024_S1024x512_S1024x512_1_0_0_1_n_n none W Vb (constant S1024x512 .f32 0x00000000#32) (ix2 p d)
      = ∑ j : Fin 1024, W (ix2 p j) * Vb (ix2 j d) := by
  simp only [matmul]
  rw [Ideal.matmul_constant_zero_apply, ← Equiv.sum_comp (contrEquiv1 dot_S1024x1024_S1024x512_S1024x512_1_0_0_1_n_n 1024 rfl rfl).symm]
  refine Finset.sum_congr rfl fun j _ => ?_
  have hk := contrEquiv1_symm_val dot_S1024x1024_S1024x512_S1024x512_1_0_0_1_n_n 1024 rfl rfl j
  have el : dot_S1024x1024_S1024x512_S1024x512_1_0_0_1_n_n.lhsIdx (ix2 p d) ((contrEquiv1 dot_S1024x1024_S1024x512_S1024x512_1_0_0_1_n_n 1024 rfl rfl).symm j) = ix2 p j := funext fun a => Fin.ext (by
    match a with
    | ⟨0, _⟩ => exact pv_lhs_0 _ _
    | ⟨1, _⟩ => exact (pv_lhs_1 _ _).trans hk)
  have er : dot_S1024x1024_S1024x512_S1024x512_1_0_0_1_n_n.rhsIdx (ix2 p d) ((contrEquiv1 dot_S1024x1024_S1024x512_S1024x512_1_0_0_1_n_n 1024 rfl rfl).symm j) = ix2 j d := funext fun a => Fin.ext (by
    match a with
    | ⟨0, _⟩ => exact (pv_rhs_0 _ _).trans hk
    | ⟨1, _⟩ => exact pv_rhs_1 _ _)
  rw [el, er]

/-- The new weighted sums of row `p`. -/
theorem sums_apply (p : Fin 1024) (d : Fin 512) :
    k0_pay9 (F := Ideal) q m a Kc Vc (ix2 p d)
      = k0_pay6 (F := Ideal) q m Kc (ix2 p (0 : Fin 1)) * a (ix2 p d)
        + ∑ j : Fin 1024, k0_pay7 (F := Ideal) q m Kc (ix2 p j) * Vc (ix2 j d) := by
  unfold k0_pay9
  refine (addf_apply _ _ _).trans ?_
  refine congrArg₂ (· + ·) ((mulf_apply _ _ _).trans (congrArg (· * a (ix2 p d)) (spread512_apply _ p d))) ?_
  refine (pv_apply _ _ p d).trans ?_
  rw [shapeCast_self]
  rfl

/-- The stored quotient. -/
theorem quotient_apply (p : Fin 1024) (d : Fin 512) :
    k0_pay10 (F := Ideal) l a (ix2 p d) = Ideal.div (a (ix2 p d)) (l (ix2 p (0 : Fin 1))) := by
  unfold k0_pay10
  refine (divf_apply _ _ _).trans ?_
  rw [spread512_apply]

end Payloads

/-- Row `j` of chunk `k` of a resident array is its row `1024 k + j`. -/
theorem chunk_apply (X : S8192x512.Idx → EReal) (k : Fin k0_t1_loop.trips) (j : Fin 1024) (e : Fin 512)
    (h : 1024 * k.val + j.val < 8192) :
    chunk (F := Ideal) X k (ix2 j e) = X (ix2 (⟨1024 * k.val + j.val, h⟩ : Fin 8192) e) := by
  unfold chunk
  show X ((Rect.unit (s := S8192x512) (k0_off1 k) S1024x512.size (k0_off1_inb k)).idx (ix2 j e)) = _
  refine congrArg X (funext fun a => Fin.ext ?_)
  match a with
  | ⟨0, _⟩ =>
    show k0_off1 k 0 + 1 * j.val = 1024 * k.val + j.val
    rw [k0_off1_eq k]; show 1024 * k.val + 1 * j.val = _; omega
  | ⟨1, _⟩ =>
    show k0_off1 k 1 + 1 * e.val = e.val
    rw [k0_off1_eq k]; show 0 + 1 * e.val = _; omega

end Cert.KernelIdeal.Flash

end
-- ==== Proof.SoftmaxReal.lean ====
/-
  Softmax-weighted averages over a finite index type, in the real numbers.

  For scores `s j` and values `v j`, the weights `exp (s j - c) / ∑ j', exp (s j' - c)` do not depend on the
  shift `c`: `exp (s j - c) = exp (s j) * exp (-c)` and the common positive factor `exp (-c)` cancels between
  numerator and denominator. Hence both ways of computing attention for one query row,
    * normalising each weight first and then averaging:  `∑ j, (exp (s j - c) / ∑ j', exp (s j' - c)) * v j`,
    * averaging unnormalised weights and dividing once:   `(∑ j, exp (s j - c') * v j) / ∑ j, exp (s j - c')`,
  equal the unshifted `(∑ j, exp (s j) * v j) / ∑ j, exp (s j)`, whatever the two shifts are.
-/
import Mathlib.Analysis.SpecialFunctions.Exp
import Mathlib.Algebra.BigOperators.Field

namespace Attention.Real

open Finset

variable {ι : Type*} [Fintype ι]

/-- A sum of exponentials over a nonempty index type is positive. -/
theorem sum_exp_pos [Nonempty ι] (s : ι → ℝ) : 0 < ∑ j, Real.exp (s j) :=
  Finset.sum_pos (fun j _ => Real.exp_pos (s j)) Finset.univ_nonempty

/-- Dividing once after averaging unnormalised shifted weights is the unshifted weighted average. -/
theorem shifted_ratio [Nonempty ι] (s v : ι → ℝ) (c : ℝ) :
    (∑ j, Real.exp (s j - c) * v j) / (∑ j, Real.exp (s j - c))
      = (∑ j, Real.exp (s j) * v j) / (∑ j, Real.exp (s j)) := by
  have hc : Real.exp (-c) ≠ 0 := (Real.exp_pos _).ne'
  have hs : (∑ j, Real.exp (s j)) ≠ 0 := (sum_exp_pos s).ne'
  have h1 : ∀ j, Real.exp (s j - c) = Real.exp (s j) * Real.exp (-c) := fun j => by
    rw [sub_eq_add_neg, Real.exp_add]
  simp only [h1]
  rw [← Finset.sum_mul, show (∑ j, Real.exp (s j) * Real.exp (-c) * v j)
      = (∑ j, Real.exp (s j) * v j) * Real.exp (-c) from by
    rw [Finset.sum_mul]; exact Finset.sum_congr rfl fun j _ => by ring]
  rw [mul_div_mul_right _ _ hc]

/-- Normalising each shifted weight first and then averaging is the unshifted weighted average. -/
theorem normalised_sum [Nonempty ι] (s v : ι → ℝ) (c : ℝ) :
    (∑ j, Real.exp (s j - c) / (∑ j', Real.exp (s j' - c)) * v j)
      = (∑ j, Real.exp (s j) * v j) / (∑ j, Real.exp (s j)) := by
  rw [← shifted_ratio s v c, Finset.sum_div]
  exact Finset.sum_congr rfl fun j _ => by ring

end Attention.Real
-- ==== Proof.OnlineSoftmax.lean ====
/-
  The streaming ("online") softmax recurrence for one query row and one output column, on the extended reals.

  The keys are visited in consecutive chunks of `w` columns. The running state is a triple
  `(m, l, a)`: a running maximum of the scores, a normaliser and a weighted sum. A chunk with scores `sc` and
  values `vc` updates it to
      m' = max m (max_j sc j),
      l' = exp (m - m') * l + ∑ j, exp (sc j - m'),
      a' = exp (m - m') * a + ∑ j, exp (sc j - m') * vc j,
  starting from `(-∞, 0, 0)`.

  For REAL scores `σ` and values `ν` the state after `n` columns is described without knowing what the running
  maximum is, only that it is a real number `μ` (or `-∞` before the first chunk):
      l = ∑_{J < n} exp (σ J - μ),      a = ∑_{J < n} exp (σ J - μ) * ν J,
  because `exp (μ - μ') * exp (σ J - μ) = exp (σ J - μ')`. Before the first chunk the rescaling factor is
  `exp (-∞) = 0`, which multiplies the zeros the state starts from. The quotient `a / l` at the end is the
  softmax-weighted average of `ν`, whatever `μ` was (shift invariance).
-/
import proofs.«409672_j69483980915299_3_alg».proof.Proof.LibIdealReal
import proofs.«409672_j69483980915299_3_alg».proof.Proof.SoftmaxReal
import Mathlib.Algebra.BigOperators.Fin
import Mathlib.Data.Finset.Fold

noncomputable section

namespace Attention.Online

open Idealize.ShloMosaic Cert.Lib Finset

/-- The maximum, taken from `-∞`, of a nonempty finite family of real numbers is a real number. -/
theorem fold_max_isReal {ι : Type*} (s : Finset ι) (hs : s.Nonempty) (f : ι → ℝ) :
    IsReal (s.fold max (⊥ : EReal) (fun j => ((f j : ℝ) : EReal))) := by
  induction hs using Finset.Nonempty.cons_induction with
  | singleton a => rw [Finset.fold_singleton, max_bot_right]; exact IsReal.coe _
  | cons a s ha hs ih => rw [Finset.fold_cons]; exact (IsReal.coe _).max ih

variable {w : ℕ}

/-- One chunk's update of the running triple (maximum, normaliser, weighted sum). -/
def step (sc vc : Fin w → EReal) (st : EReal × EReal × EReal) : EReal × EReal × EReal :=
  (max st.1 (Finset.univ.fold max ⊥ sc),
   Ideal.exp (st.1 - max st.1 (Finset.univ.fold max ⊥ sc)) * st.2.1
     + ∑ j, Ideal.exp (sc j - max st.1 (Finset.univ.fold max ⊥ sc)),
   Ideal.exp (st.1 - max st.1 (Finset.univ.fold max ⊥ sc)) * st.2.2
     + ∑ j, Ideal.exp (sc j - max st.1 (Finset.univ.fold max ⊥ sc)) * vc j)

/-- The state after the first `n` columns of real scores `σ` and values `ν`: relative to SOME real shift `μ`,
    which is the running maximum once a chunk has been seen. -/
def Inv (σ ν : ℕ → ℝ) (n : ℕ) (st : EReal × EReal × EReal) : Prop :=
  ∃ μ : ℝ, (st.1 = (μ : EReal) ∨ (n = 0 ∧ st.1 = ⊥)) ∧
    st.2.1 = ((∑ J ∈ range n, Real.exp (σ J - μ) : ℝ) : EReal) ∧
    st.2.2 = ((∑ J ∈ range n, Real.exp (σ J - μ) * ν J : ℝ) : EReal)

/-- Before any column: maximum `-∞`, both sums empty. -/
theorem inv_zero (σ ν : ℕ → ℝ) : Inv σ ν 0 (⊥, 0, 0) :=
  ⟨0, Or.inr ⟨rfl, rfl⟩, by simp, by simp⟩

/-- Rescaling the sums over the columns seen so far from the old shift to the new one. -/
theorem rescale (σ g : ℕ → ℝ) (n : ℕ) (m : EReal) (μ μ' : ℝ)
    (hm : m = (μ : EReal) ∨ (n = 0 ∧ m = ⊥)) :
    Ideal.exp (m - (μ' : EReal)) * ((∑ J ∈ range n, Real.exp (σ J - μ) * g J : ℝ) : EReal)
      = ((∑ J ∈ range n, Real.exp (σ J - μ') * g J : ℝ) : EReal) := by
  rcases hm with hm | ⟨hn, hm⟩
  · rw [hm, ← EReal.coe_sub, Ideal.exp_coe, ← EReal.coe_mul, Finset.mul_sum]
    refine congrArg _ (Finset.sum_congr rfl fun J _ => ?_)
    rw [← mul_assoc, ← Real.exp_add]
    congr 2; ring
  · subst hn
    rw [hm, EReal.bot_sub, Ideal.exp_bot, zero_mul]
    simp

/-- One chunk of `w > 0` real scores and values takes the state after `n` columns to the state after `n + w`. -/
theorem inv_step (hw : 0 < w) (σ ν : ℕ → ℝ) (n : ℕ) (st : EReal × EReal × EReal) (h : Inv σ ν n st)
    (sc vc : Fin w → EReal) (hsc : ∀ j : Fin w, sc j = ((σ (n + j.val) : ℝ) : EReal))
    (hvc : ∀ j : Fin w, vc j = ((ν (n + j.val) : ℝ) : EReal)) :
    Inv σ ν (n + w) (step sc vc st) := by
  obtain ⟨μ, hm, hl, ha⟩ := h
  have hne : (Finset.univ : Finset (Fin w)).Nonempty := ⟨⟨0, hw⟩, Finset.mem_univ _⟩
  obtain ⟨γ, hγ⟩ : IsReal (Finset.univ.fold max ⊥ sc) := by
    rw [show sc = fun j : Fin w => ((σ (n + j.val) : ℝ) : EReal) from funext hsc]
    exact fold_max_isReal _ hne _
  obtain ⟨μ', hμ'⟩ : ∃ μ' : ℝ, max st.1 (Finset.univ.fold max ⊥ sc) = (μ' : EReal) := by
    rcases hm with hm | ⟨_, hm⟩
    · exact ⟨max μ γ, by rw [hm, hγ, coe_max]⟩
    · exact ⟨γ, by rw [hm, hγ, max_bot_left]⟩
  have hchunk : ∀ g : ℕ → ℝ, (∑ j : Fin w, ((Real.exp (σ (n + j.val) - μ') * g (n + j.val) : ℝ) : EReal))
      = ((∑ j ∈ range w, Real.exp (σ (n + j) - μ') * g (n + j) : ℝ) : EReal) := fun g => by
    rw [coe_sum, Fin.sum_univ_eq_sum_range (fun j => Real.exp (σ (n + j) - μ') * g (n + j)) w]
  refine ⟨μ', Or.inl hμ', ?_, ?_⟩
  · show Ideal.exp (st.1 - max st.1 (Finset.univ.fold max ⊥ sc)) * st.2.1
        + ∑ j, Ideal.exp (sc j - max st.1 (Finset.univ.fold max ⊥ sc)) = _
    rw [hμ', hl]
    have h1 := rescale σ (fun _ => 1) n st.1 μ μ' hm
    simp only [mul_one] at h1
    rw [h1]
    have h2 := hchunk (fun _ => 1)
    simp only [mul_one] at h2
    simp only [hsc, ← EReal.coe_sub, Ideal.exp_coe]
    rw [h2, ← EReal.coe_add, Finset.sum_range_add]
  · show Ideal.exp (st.1 - max st.1 (Finset.univ.fold max ⊥ sc)) * st.2.2
        + ∑ j, Ideal.exp (sc j - max st.1 (Finset.univ.fold max ⊥ sc)) * vc j = _
    rw [hμ', ha, rescale σ ν n st.1 μ μ' hm]
    simp only [hsc, hvc, ← EReal.coe_sub, Ideal.exp_coe, ← EReal.coe_mul]
    rw [hchunk ν, ← EReal.coe_add, Finset.sum_range_add]

/-- The quotient of the weighted sum by the normaliser, after `N > 0` columns, is the softmax-weighted average of
    the values: the shift cancels. -/
theorem quotient_eq {N : ℕ} (hN : 0 < N) (σ ν : ℕ → ℝ) (st : EReal × EReal × EReal) (h : Inv σ ν N st) :
    Ideal.div st.2.2 st.2.1
      = (((∑ J : Fin N, Real.exp (σ J.val) * ν J.val) / (∑ J : Fin N, Real.exp (σ J.val)) : ℝ) : EReal) := by
  obtain ⟨μ, -, hl, ha⟩ := h
  haveI : Nonempty (Fin N) := ⟨⟨0, hN⟩⟩
  have hpos : 0 < ∑ J : Fin N, Real.exp (σ J.val - μ) :=
    Attention.Real.sum_exp_pos (fun J : Fin N => σ J.val - μ)
  rw [hl, ha, ← Fin.sum_univ_eq_sum_range (fun J => Real.exp (σ J - μ)) N,
    ← Fin.sum_univ_eq_sum_range (fun J => Real.exp (σ J - μ) * ν J) N,
    Ideal.div_coe hpos.ne', ← EReal.coe_mul,
    ← Attention.Real.shifted_ratio (fun J : Fin N => σ J.val) (fun J : Fin N => ν J.val) μ]
  congr 1
  rw [mul_one_div]

end Attention.Online

end
-- ==== Proof.KernelRows.lean ====
/-
  One query row through the kernel's loop.

  Reading the carried triple at row `p` (and, for the weighted sums, value column `d`) turns each trip of the loop
  into one update of the streaming softmax recurrence (`Attention.Online.step`) by the chunk's 1024 scores of
  that row and the chunk's 1024 entries of that value column. With real-valued blocks the recurrence's invariant
  holds before every trip, the columns seen before trip `n` being the first `1024 n` key rows; after the eighth trip
  the stored quotient is the softmax-weighted average over all 8192 key rows.
-/
import proofs.«409672_j69483980915299_3_alg».proof.Proof.KernelPayloads
import proofs.«409672_j69483980915299_3_alg».proof.Proof.OnlineSoftmax

noncomputable section

namespace Cert.KernelIdeal.Flash

open Cert.KernelIdeal Cert.KernelIdeal.Gen Idealize.ShloMosaic Idealize.ShloMosaic.ValueIdx Attention Cert.Lib

/-- The carried triple read at row `p`: its maximum, its normaliser, and its weighted sum for value column `d`. -/
def rowOf (T : Carry Ideal) (p : Fin 1024) (d : Fin 512) : EReal × EReal × EReal :=
  (T.1 (ix2 p (0 : Fin 1)), T.2.1 (ix2 p (0 : Fin 1)), T.2.2 (ix2 p d))

/-- One trip, read at a row and a value column, is one update of the streaming recurrence by the chunk's scores
    of that row and the chunk's entries of that value column. -/
theorem tripFn_rowOf (q : S1024x512.Idx → EReal) (K V : S8192x512.Idx → EReal) (k : Fin k0_t1_loop.trips)
    (T : Carry Ideal) (p : Fin 1024) (d : Fin 512) :
    rowOf (tripFn (F := Ideal) q K V k T) p d
      = Attention.Online.step
          (fun j : Fin 1024 => ∑ e : Fin 512, q (ix2 p e) * chunk (F := Ideal) K k (ix2 j e))
          (fun j : Fin 1024 => chunk (F := Ideal) V k (ix2 j d)) (rowOf T p d) := by
  unfold rowOf tripFn Attention.Online.step
  dsimp only
  rw [normaliser_apply, sums_apply, rescale_apply, rowmax_apply]
  simp only [weights_apply, rowmax_apply, scores_apply]

/-- The scores of query row `p` against the key rows, and value column `d`, as sequences of real numbers
    (zero past the last key row). -/
def rowScores (q : S1024x512.Idx → EReal) (K : S8192x512.Idx → EReal) (p : Fin 1024) (J : ℕ) : ℝ :=
  if h : J < 8192 then ∑ e : Fin 512, (q (ix2 p e)).toReal * (K (ix2 (⟨J, h⟩ : Fin 8192) e)).toReal else 0

def colValues (V : S8192x512.Idx → EReal) (d : Fin 512) (J : ℕ) : ℝ :=
  if h : J < 8192 then (V (ix2 (⟨J, h⟩ : Fin 8192) d)).toReal else 0

section Real

variable (q : S1024x512.Idx → EReal) (K V : S8192x512.Idx → EReal)
variable (hq : ∀ i, IsReal (q i)) (hK : ∀ i, IsReal (K i)) (hV : ∀ i, IsReal (V i))

include hq hK hV in
/-- Before trip `n` the triple of row `p` and value column `d` is the recurrence's state after the first `1024 n`
    key rows. -/
theorem carried_inv (p : Fin 1024) (d : Fin 512) (n : ℕ) (hn : n ≤ 8) :
    Attention.Online.Inv (rowScores q K p) (colValues V d) (1024 * n) (rowOf (carried (F := Ideal) q K V n) p d) := by
  induction n with
  | zero =>
    have h0 : rowOf (carried (F := Ideal) q K V 0) p d = (⊥, 0, 0) := by
      show (Ideal.ofBits .f32 0xFF800000#32, Ideal.ofBits .f32 0x00000000#32, Ideal.ofBits .f32 0x00000000#32) = _
      rw [ofBits_neg_inf, Ideal.ofBits_zero_f32]
    rw [h0]
    exact Attention.Online.inv_zero _ _
  | succ n ih =>
    have hlt : n < k0_t1_loop.trips := by rw [trips_eq]; omega
    have hc : carried (F := Ideal) q K V (n + 1) = tripFn (F := Ideal) q K V ⟨n, hlt⟩ (carried (F := Ideal) q K V n) :=
      carried_succ (F := Ideal) q K V ⟨n, hlt⟩
    rw [hc, tripFn_rowOf, Nat.mul_succ]
    refine Attention.Online.inv_step (by decide) _ _ _ _ (ih (by omega)) _ _ (fun j => ?_) (fun j => ?_)
    · have hJ : 1024 * n + j.val < 8192 := by have := j.isLt; omega
      show ∑ e : Fin 512, q (ix2 p e) * chunk (F := Ideal) K ⟨n, hlt⟩ (ix2 j e) = _
      rw [rowScores, dif_pos hJ, ← coe_sum]
      refine Finset.sum_congr rfl fun e _ => ?_
      rw [chunk_apply K ⟨n, hlt⟩ j e hJ, EReal.coe_mul, (hq _).coe_toReal, (hK _).coe_toReal]
    · have hJ : 1024 * n + j.val < 8192 := by have := j.isLt; omega
      show chunk (F := Ideal) V ⟨n, hlt⟩ (ix2 j d) = _
      rw [colValues, dif_pos hJ, chunk_apply V ⟨n, hlt⟩ j d hJ, (hV _).coe_toReal]

include hq hK hV in
/-- THE STORED BLOCK at `[p, d]`: the softmax-weighted average of value column `d` over all 8192 key rows, the
    weights those of query row `p`'s scores. -/
theorem block_apply (p : Fin 1024) (d : Fin 512) :
    k0_pay10 (F := Ideal) (carried (F := Ideal) q K V 8).2.1 (carried (F := Ideal) q K V 8).2.2 (ix2 p d)
      = (((∑ J : Fin 8192, Real.exp (∑ e : Fin 512, (q (ix2 p e)).toReal * (K (ix2 J e)).toReal) * (V (ix2 J d)).toReal)
          / (∑ J : Fin 8192, Real.exp (∑ e : Fin 512, (q (ix2 p e)).toReal * (K (ix2 J e)).toReal)) : ℝ) : EReal) := by
  have hinv := carried_inv q K V hq hK hV p d 8 le_rfl
  rw [show 1024 * 8 = 8192 from rfl] at hinv
  have hs : ∀ J : Fin 8192, rowScores q K p J.val = ∑ e : Fin 512, (q (ix2 p e)).toReal * (K (ix2 J e)).toReal :=
    fun J => by rw [rowScores, dif_pos J.isLt]
  have hv : ∀ J : Fin 8192, colValues V d J.val = (V (ix2 J d)).toReal :=
    fun J => by rw [colValues, dif_pos J.isLt]
  rw [quotient_apply]
  have hq' := Attention.Online.quotient_eq (N := 8192) (by decide) _ _ _ hinv
  simp only [hs, hv] at hq'
  exact hq'

end Real

end Cert.KernelIdeal.Flash

end
-- ==== Proof.KernelValue.lean ====
/-
  The kernel's whole result array.

  Grid point `t` (of 8) stages query rows `1024 t … 1024 t + 1023` and the WHOLE key and value arrays — which @main
  has narrowed to bf16 beforehand, the identity here —, and writes back rows `1024 t … 1024 t + 1023` of the result.
  By the row lemma the block it writes is, entry by entry, `Attention.result` of the three argument arrays at the
  array index the entry lands on; the eight blocks tile the 8192 rows, so the result array after the run IS
  `Attention.result` of the arguments.
-/
import proofs.«409672_j69483980915299_3_alg».proof.Proof.KernelRows
import Idealize.ShloMosaic.Lib.Pipeline.Value
import Idealize.ShloMosaic.Lib.StableHlo.Run

set_option maxRecDepth 16384

noncomputable section

namespace Cert.KernelIdeal.Flash

open Cert.KernelIdeal Cert.KernelIdeal.Gen Cert.KernelIdeal.Value Idealize.ShloMosaic Idealize.ShloMosaic.TcCoe
open Idealize.SL.Sem Idealize.ShloMosaic.ValueIdx Attention Cert.Lib
open Idealize.ShloMosaic.Pipeline (Dat)

/-! ## One block against the arrays, over variables -/

/-- A block `q` that holds query rows `1024 t …` of `x0`, against the whole keys `x1` and values `x2`: the stored
    quotient at `[p, d]` is the result at `[1024 t + p, d]`. -/
theorem block_result (q : S1024x512.Idx → EReal) (K V x0 x1 x2 : S8192x512.Idx → EReal)
    (h0 : ∀ i, IsReal (x0 i)) (h1 : ∀ i, IsReal (x1 i)) (h2 : ∀ i, IsReal (x2 i)) (t : ℕ) (ht : t < 8)
    (hq : ∀ (p : Fin 1024) (e : Fin 512) (h : 1024 * t + p.val < 8192),
      q (ix2 p e) = x0 (ix2 (⟨1024 * t + p.val, h⟩ : Fin 8192) e))
    (hK : K = x1) (hV : V = x2) (p : Fin 1024) (d : Fin 512) (h : 1024 * t + p.val < 8192) :
    k0_pay10 (F := Ideal) (carried (F := Ideal) q K V 8).2.1 (carried (F := Ideal) q K V 8).2.2 (ix2 p d)
      = result x0 x1 x2 (ix2 (⟨1024 * t + p.val, h⟩ : Fin 8192) d) := by
  subst hK hV
  have hqr : ∀ i, IsReal (q i) := fun i => by
    obtain ⟨p', e', rfl⟩ : ∃ (p' : Fin 1024) (e' : Fin 512), i = ix2 p' e' := ⟨i 0, i 1, eq_ix2 i⟩
    have hi : 1024 * t + p'.val < 8192 := by have := p'.isLt; omega
    rw [hq p' e' hi]; exact h0 _
  rw [block_apply q K V hqr h1 h2 p d, result_apply]
  unfold attn score re
  simp only [hq p _ h]

/-! ## The windows' blocks -/

variable (m : (ℓ : Loc nD τ sig) → Buf (Elt Ideal) ℓ) (ρ : Dev nD → PrngReg)

/-- The printed index maps over the grid: the query and result windows move one block of rows per point, the key and
    value windows stay at the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The keys as the region finds them: @main's narrowing of the second argument, the identity at these values. -/
theorem V_keys (c : Dev nD) :
    (V m c main_v0 : S8192x512.Idx → EReal) = m ((c : Thread nD τ).loc main_arg1) := by
  dsimp only [Gen.V, Gen.hostOps0]; after_results; rfl

/-- The values as the region finds them: @main's narrowing of the third argument. -/
theorem V_values (c : Dev nD) :
    (V m c main_v1 : S8192x512.Idx → EReal) = m ((c : Thread nD τ).loc main_arg2) := by
  dsimp only [Gen.V, Gen.hostOps0]; after_results; rfl

/-- Row `p` of point `t`'s query block is row `1024 t + p` of the first argument. -/
theorem qblk_apply (c : Dev nD) (t : Fin cfg0.N) (p : Fin 1024) (e : Fin 512) (h : 1024 * t.val + p.val < 8192) :
    iblk m c 0 t (ix2 p e) = m ((c : Thread nD τ).loc main_arg0) (ix2 (⟨1024 * t.val + p.val, h⟩ : Fin 8192) e) := by
  obtain ⟨e0, e1, -⟩ := idx_facts t
  unfold iblk
  show V m c main_arg0 (((cfg0.win 0).blk t).view.emb (ix2 p e)) = _
  rw [V_main_arg0]
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 512 + 1 * e.val = e.val; omega

/-- Point `t`'s key block is the whole second argument. -/
theorem kblk_eq (c : Dev nD) (t : Fin cfg0.N) :
    (iblk m c 1 t : S8192x512.Idx → EReal) = m ((c : Thread nD τ).loc main_arg1) := by
  obtain ⟨-, -, e0, e1, -⟩ := idx_facts t
  funext y
  unfold iblk
  show V m c main_v0 (((cfg0.win 1).blk t).view.emb y) = _
  rw [V_keys]
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 512 + 1 * (y 1).val = (y 1).val; omega

/-- Point `t`'s value block is the whole third argument. -/
theorem vblk_eq (c : Dev nD) (t : Fin cfg0.N) :
    (iblk m c 2 t : S8192x512.Idx → EReal) = m ((c : Thread nD τ).loc main_arg2) := by
  obtain ⟨-, -, -, -, e0, e1, -⟩ := idx_facts t
  funext y
  unfold iblk
  show V m c main_v1 (((cfg0.win 2).blk t).view.emb y) = _
  rw [V_values]
  refine congrArg _ (funext fun a => Fin.ext ?_)
  match a with
  | ⟨0, _⟩ => show win0_2.index t (0 : Fin 2) * 8192 + 1 * (y 0).val = (y 0).val; omega
  | ⟨1, _⟩ => show win0_2.index t (1 : Fin 2) * 512 + 1 * (y 1).val = (y 1).val; omega

/-- Entry `[p, d]` of point `t`'s result block lands at `[1024 t + p, d]` of the result array. -/
theorem oblk_emb (t : Fin cfg0.N) (p : Fin 1024) (d : Fin 512) (h : 1024 * t.val + p.val < 8192) :
    ((cfg0.win 3).blk t).view.emb (ix2 p d) = ix2 (⟨1024 * t.val + p.val, h⟩ : Fin 8192) d := by
  obtain ⟨-, -, -, -, -, -, e0, e1⟩ := idx_facts t
  refine funext fun a => Fin.ext ?_
  match a with
  | ⟨0, _⟩ => show win0_3.index t (0 : Fin 2) * 1024 + 1 * p.val = 1024 * t.val + p.val; omega
  | ⟨1, _⟩ => show win0_3.index t (1 : Fin 2) * 512 + 1 * d.val = d.val; omega

/-! ## What each point writes back, the cover, the array -/

section Real

variable (c : Dev nD)
variable (h0 : ∀ i, IsReal (m ((c : Thread nD τ).loc main_arg0) i))
  (h1 : ∀ i, IsReal (m ((c : Thread nD τ).loc main_arg1) i))
  (h2 : ∀ i, IsReal (m ((c : Thread nD τ).loc main_arg2) i))

include h0 h1 h2 in
/-- WHAT POINT `t` WRITES BACK is block `t` of `Attention.result` of the argument arrays. -/
theorem flushed_eq (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  have ht : t.val < 8 := t.isLt
  rw [Value.flushed3_A, out_eq]
  funext y
  obtain ⟨p, d, rfl⟩ : ∃ (p : Fin 1024) (d : Fin 512), y = ix2 p d := ⟨y 0, y 1, eq_ix2 y⟩
  have hp : 1024 * t.val + p.val < 8192 := by have := p.isLt; omega
  rw [View.read_apply, oblk_emb t p d hp]
  exact block_result (iblk m c 0 t) (iblk m c 1 t) (iblk m c 2 t) _ _ _ h0 h1 h2 t.val ht
    (fun p e h => qblk_apply m c t p e h) (kblk_eq m c t) (vblk_eq m c t) p d hp

/-- An index of the result array is in point `t`'s block iff each coordinate is in the block's range. -/
theorem mem_oblk (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- The eight blocks tile the result array: row `r` is in the block of point `r / 1024`. -/
theorem cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  let t : Fin cfg0.N := ⟨(i 0).val / 1024, by show (i 0).val / 1024 < 8; omega⟩
  obtain ⟨-, -, -, -, -, -, e0, e1⟩ := idx_facts t
  have e0' : win0_3.index t (0 : Fin 2) = (i 0).val / 1024 := e0
  refine ⟨t, flush0_3 t, (mem_oblk t i).mpr fun a => ?_⟩
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

include h0 h1 h2 in
/-- THE RESULT ARRAY after the run. -/
theorem final : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c h0 h1 h2 t) cover

end Real

end Cert.KernelIdeal.Flash

end
-- ==== Proof.RefRead.lean ====
/-
  The reference computes `Attention.result`.

  Its stages, read at an index for real-valued (finite) inputs:
    scores      s[r, j] = ∑ e, q[r, e] * k[j, e]                          — a real number;
    row maximum M[r]    = max (-∞) (max over j, from -∞, of s[r, j])      — a real number, the row being nonempty
                          (which one is never needed);
    weights     p[r, j] = exp (s[r, j] - M[r]),   L[r] = 0 + ∑ j, p[r, j] — real, L[r] > 0;
    result      o[r, d] = ∑ j, (p[r, j] / L[r]) * v[j, d],
  and normalising each shifted weight before averaging gives the unshifted softmax average
  (`Attention.Real.normalised_sum`).
-/
import proofs.«409672_j69483980915299_3_alg».proof.Proof.Gen.ReferenceIdeal.Read
import proofs.«409672_j69483980915299_3_alg».proof.Proof.AttnSpec
import proofs.«409672_j69483980915299_3_alg».proof.Proof.OnlineSoftmax

noncomputable section

namespace Cert.ReferenceIdeal.Attn

open Cert.ReferenceIdeal Cert.ReferenceIdeal.Gen Cert.ReferenceIdeal.Read Idealize.ShloMosaic Idealize.ShloMosaic.ValueIdx
open Cert.Lib Attention

variable (x0 x1 x2 : (⟨S8192x512, .f32⟩ : BufTy).Contents (Elt Ideal))
variable (h0 : ∀ i, IsReal (x0 i)) (h1 : ∀ i, IsReal (x1 i)) (h2 : ∀ i, IsReal (x2 i))

include h0 h1 in
/-- The scores: query row `r` against key row `j` (the transposed keys read back at `[j, e]`). -/
theorem scores_apply (r j : Fin 8192) :
    val_main_v1 (F := Ideal) x0 x1 (ix2 r j) = ((score x0 x1 r j : ℝ) : EReal) := by
  rw [val_main_v1_apply]
  unfold score
  rw [← coe_sum]
  refine Finset.sum_congr rfl fun e _ => ?_
  have e1 : lidx_main_v1 (ix2 r j) e = ix2 r e :=
    funext fun a => by match a with | ⟨0, _⟩ => rfl | ⟨1, _⟩ => rfl
  have e2 : idx_main_v0 (ridx_main_v1 (ix2 r j) e) = ix2 j e :=
    funext fun a => by match a with | ⟨0, _⟩ => rfl | ⟨1, _⟩ => rfl
  rw [val_main_v0_apply, e1, e2, EReal.coe_mul, coe_re h0, coe_re h1]

include h0 h1 in
/-- The row maximum is a real number. -/
theorem rowMax_isReal (r : Fin 8192) : IsReal (val_main_v4 (F := Ideal) x0 x1 (ix1 r)) := by
  rw [val_main_v4_apply, val_main_v3_apply, val_main_cst_0_apply]
  show IsReal (max (Ideal.ofBits .f32 0xFF800000#32) (val_main_v2 (F := Ideal) x0 x1 (ix1 r)))
  rw [ofBits_neg_inf, max_bot_left]
  unfold val_main_v2
  have hred : S8192x8192.Reduces [1] S8192 := by decide
  rw [Host.reduce_eq_fold_single (FloatOps.maximumf (F := Ideal) (φ := .f32)) _ _ reducesTo_S8192x8192_S8192_d1 hred h_S_]
  have hk : ∀ k : Fin 8192, val_main_v1 (F := Ideal) x0 x1 (hred.lift (ix1 r) k) = ((score x0 x1 r k : ℝ) : EReal) :=
    fun k => by
      rw [show hred.lift (ix1 r) k = ix2 r k from
        funext fun a => Fin.ext (by match a with | ⟨0, _⟩ => rfl | ⟨1, _⟩ => rfl), scores_apply x0 x1 h0 h1]
  have hf : (val_main_v1 (F := Ideal) x0 x1 ∘ hred.lift (ix1 r))
      = fun k : Fin 8192 => ((score x0 x1 r k : ℝ) : EReal) := funext fun k : Fin 8192 => hk k
  rw [hf, val_main_cst_apply]
  show IsReal (Finset.fold max (Ideal.ofBits .f32 0xFF800000#32) _ _)
  rw [ofBits_neg_inf]
  exact Attention.Online.fold_max_isReal _ ⟨⟨0, by decide⟩, Finset.mem_univ _⟩ _

include h0 h1 in
/-- The unnormalised weights, relative to the row maximum `μ`. -/
theorem weight_apply (r j : Fin 8192) (μ : ℝ) (hμ : val_main_v4 (F := Ideal) x0 x1 (ix1 r) = (μ : EReal)) :
    val_main_v8 (F := Ideal) x0 x1 (ix2 r j) = ((Real.exp (score x0 x1 r j - μ) : ℝ) : EReal) := by
  have e1 : idx_main_v5 (idx_main_v6 (ix2 r j)) = ix1 r :=
    funext fun a => by match a with | ⟨0, _⟩ => rfl
  rw [val_main_v8_apply, val_main_v7_apply, val_main_v6_apply, val_main_v5_apply, e1, hμ, scores_apply x0 x1 h0 h1]
  show Ideal.exp (((score x0 x1 r j : ℝ) : EReal) - (μ : EReal)) = _
  rw [← EReal.coe_sub, Ideal.exp_coe]

include h0 h1 in
/-- The normaliser of row `r`. -/
theorem normaliser_apply (r : Fin 8192) (μ : ℝ) (hμ : val_main_v4 (F := Ideal) x0 x1 (ix1 r) = (μ : EReal)) :
    val_main_v9 (F := Ideal) x0 x1 (ix1 r) = ((∑ j : Fin 8192, Real.exp (score x0 x1 r j - μ) : ℝ) : EReal) := by
  rw [val_main_v9_apply, val_main_cst_1_apply]
  show Ideal.ofBits .f32 0x00000000#32 + _ = _
  rw [Ideal.ofBits_zero_f32, zero_add, ← coe_sum]
  refine Finset.sum_congr rfl fun k _ => ?_
  rw [show idx_main_v9 (ix1 r) k = ix2 r k from
    funext fun a => by match a with | ⟨0, _⟩ => rfl | ⟨1, _⟩ => rfl, weight_apply x0 x1 h0 h1 r k μ hμ]

include h0 h1 h2 in
/-- THE REFERENCE'S RESULT is the softmax-weighted average of the values. -/
theorem result_eq : val_main_v13 (F := Ideal) x0 x1 x2 = result x0 x1 x2 := by
  funext i
  obtain ⟨r, d, rfl⟩ : ∃ (r : Fin 8192) (d : Fin 512), i = ix2 r d := ⟨i 0, i 1, eq_ix2 i⟩
  obtain ⟨μ, hμ⟩ := rowMax_isReal x0 x1 h0 h1 r
  haveI : Nonempty (Fin 8192) := ⟨0⟩
  have hpos : 0 < ∑ j : Fin 8192, Real.exp (score x0 x1 r j - μ) :=
    Attention.Real.sum_exp_pos (fun j => score x0 x1 r j - μ)
  rw [val_main_v13_apply, result_apply]
  unfold attn
  rw [← Attention.Real.normalised_sum (fun j => score x0 x1 r j) (fun j => re x2 j d) μ, ← coe_sum]
  refine Finset.sum_congr rfl fun k _ => ?_
  have e1 : lidx_main_v13 (ix2 r d) k = ix2 r k :=
    funext fun a => by match a with | ⟨0, _⟩ => rfl | ⟨1, _⟩ => rfl
  have e2 : ridx_main_v13 (ix2 r d) k = ix2 k d :=
    funext fun a => by match a with | ⟨0, _⟩ => rfl | ⟨1, _⟩ => rfl
  have e3 : idx_main_v10 (idx_main_v11 (ix2 r k)) = ix1 r :=
    funext fun a => by match a with | ⟨0, _⟩ => rfl
  rw [e1, e2, val_main_v12_apply, val_main_v11_apply, val_main_v10_apply, e3,
    weight_apply x0 x1 h0 h1 r k μ hμ, normaliser_apply x0 x1 h0 h1 r μ hμ]
  show Ideal.div _ _ * _ = _
  rw [Ideal.div_coe hpos.ne', ← EReal.coe_mul, ← coe_re h2 k d, ← EReal.coe_mul, mul_one_div]

end Cert.ReferenceIdeal.Attn

end
-- ==== Proof.Finite.lean ====
/-
  The precondition, decoded: every entry of each of the three argument arrays is a real number.

  The printed predicate is the conjunction of three `all (|x| < +∞)` tests, one per array, each a reduction by
  `and` of the elementwise comparison of `|x| = max x (-x)` with the pattern `0x7F800000`, which denotes `+∞`.
  The predicate being all ones, each comparison is one at every index, so `max x (-x) < ⊤` there, and an extended
  real with that property is neither infinity.
-/
import proofs.«409672_j69483980915299_3_alg».proof.Pre_finite_inputs
import proofs.«409672_j69483980915299_3_alg».proof.Proof.Gen.Pre_finite_inputs
import proofs.«409672_j69483980915299_3_alg».proof.Proof.LibIdealReal
import Idealize.ShloMosaic.Lib.ReduceAll
import Idealize.ShloMosaic.Lib.ValueIdx
import Idealize.ShloMosaic.Lib.Affine

noncomputable section

namespace Attention.Finite

open Idealize.ShloMosaic Cert.Lib Cert.Pre_finite_inputs

instance : Subsingleton Cert.Pre_finite_inputs.S_.Idx := ⟨fun a b => funext fun d => d.elim0⟩

/-- The `f32` pattern `0x7F800000` denotes `+∞`. -/
theorem ofBits_pos_inf : Ideal.ofBits .f32 0x7F800000#32 = ⊤ := by simp [Ideal.ofBits, Ideal.ieee]

/-- An entry whose absolute value tests below `+∞` is real. -/
theorem isReal_of_test (x : EReal)
    (h : Ideal.cmp .olt (max x (-x)) (Ideal.ofBits .f32 0x7F800000#32) = 1#1) : IsReal x := by
  rw [ofBits_pos_inf] at h
  refine isReal_of_abs_lt_top ?_
  by_contra hlt
  have : Ideal.cmp .olt (max x (-x)) ⊤ = 0#1 := by
    show BitVec.ofBool (decide (max x (-x) < ⊤)) = 0#1
    rw [decide_eq_false hlt]; rfl
  rw [this] at h
  exact absurd h (by decide)

variable [hF : Cert.Pre_finite_inputs.Facts]

/-- One array's `all (|x| < +∞)` being one makes every entry of it real. -/
theorem isReal_of_all (x : FVec Ideal S8192x512 .f32)
    (h : Host.reduce IntOp.andi
        (cmpf .olt (Host.absf x) (broadcastInDim S8192x512 ![] Facts.bcast_S_S8192x512 (constant (F := Ideal) S_ .f32 0x7F800000#32)))
        (constantI S_ 1 1#1) Facts.reducesTo_S8192x512_S_d0_1 Facts.h_S_ ValueIdx.ix0 = 1#1)
    (i : S8192x512.Idx) : IsReal (x i) :=
  isReal_of_test (x i) (Host.reduce_andi_all _ _ _ _ _ h i)

/-- THE PRECONDITION, DECODED. -/
theorem real_of_pre (x0 x1 x2 : FVec Ideal S8192x512 .f32)
    (h : Cert.Pre_finite_inputs.fn (F := Ideal) x0 x1 x2 = fun _ => 1#1) :
    (∀ i, IsReal (x0 i)) ∧ (∀ i, IsReal (x1 i)) ∧ (∀ i, IsReal (x2 i)) := by
  have h' := congrFun h ValueIdx.ix0
  dsimp only [Cert.Pre_finite_inputs.fn] at h'
  obtain ⟨h01, h2⟩ := IntOp.andi_eq_one.mp h'
  obtain ⟨h0, h1⟩ := IntOp.andi_eq_one.mp h01
  exact ⟨isReal_of_all x0 h0, isReal_of_all x1 h1, isReal_of_all x2 h2⟩

end Attention.Finite

end
-- ==== Proof.Claims.lean ====
/-
  The five claims.

  The three frames: the word-level kernel and its idealization by their launch-and-body runs, the reference by its
  run with the result dropped. The idealization rewrote nothing, so it preserves the kernel trivially.

  Equivalence over the extended reals: under the precondition every entry of the three arguments is a real number.
  The kernel streams the softmax — per query row a running maximum, a normaliser and weighted sums of value rows,
  rescaled by `exp (old maximum - new maximum)` at each of its eight chunks of keys, and one division at the end —
  while the reference subtracts the row maximum, exponentiates, normalises each weight and then averages the
  values. Over the reals the subtracted maximum cancels in both, so both result arrays are
      out[r, d] = (∑ j, exp (q[r] · k[j]) * v[j, d]) / ∑ j, exp (q[r] · k[j]).
-/
import proofs.«409672_j69483980915299_3_alg».proof.Defs
import proofs.«409672_j69483980915299_3_alg».proof.Proof.Gen.Kernel.Frame
import proofs.«409672_j69483980915299_3_alg».proof.Proof.KernelValue
import proofs.«409672_j69483980915299_3_alg».proof.Proof.RefRead
import proofs.«409672_j69483980915299_3_alg».proof.Proof.Finite

noncomputable section

namespace Cert.Proof.Claims

open Idealize.ShloMosaic Idealize.ShloMosaic.TcCoe Idealize.SL.Sem Cert.Lib

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Attention.result` of the (real-valued) argument arrays. -/
theorem algebraic : Cert.algebraic_KernelIdeal_ReferenceIdeal := by
  intro m ρ m' ρ' hpre hagree
  have hreal := fun c : Dev Cert.KernelIdeal.nD => Attention.Finite.real_of_pre _ _ _ (hpre c)
  refine ⟨fun c => Attention.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Flash.final m c (hreal c).1 (hreal c).2.1 (hreal c).2.2), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact (Cert.ReferenceIdeal.Read.val_main_v13_eq _ _ _).trans
      (Cert.ReferenceIdeal.Attn.result_eq _ _ _ (hreal c).1 (hreal c).2.1 (hreal c).2.2)

end Cert.Proof.Claims

end
-- ==== Proof.lean ====
/-
  Single-head attention: a Pallas kernel that streams the softmax over the keys in eight chunks of 1024 rows,
  against the jnp reference `softmax (q kᵀ) v`, for 8192 × 512 arrays.

  At the ideal float instance the two programs compute, entry by entry, the same real number
      out[r, d] = (∑ j, exp (q[r] · k[j]) * v[j, d]) / ∑ j, exp (q[r] · k[j])
  whenever the three inputs are finite: the kernel's running-maximum rescaling and the reference's subtraction of
  the row maximum both cancel (Proof/SoftmaxReal.lean, Proof/OnlineSoftmax.lean). The kernel's side is read off its
  loop (Proof/KernelPiece.lean, KernelPayloads.lean, KernelRows.lean) and assembled block by block
  (Proof/KernelValue.lean); the reference's side stage by stage (Proof/RefRead.lean); the inputs' finiteness decoded
  from the precondition (Proof/Finite.lean); the five claims are in Proof/Claims.lean.
-/
import proofs.«409672_j69483980915299_3_alg».proof.Defs
import proofs.«409672_j69483980915299_3_alg».proof.Proof.Gen.Kernel
import proofs.«409672_j69483980915299_3_alg».proof.Proof.Gen.Kernel.Skeleton
import proofs.«409672_j69483980915299_3_alg».proof.Proof.Gen.Kernel.Loops
import proofs.«409672_j69483980915299_3_alg».proof.Proof.Gen.Kernel.Launch
import proofs.«409672_j69483980915299_3_alg».proof.Proof.Gen.Kernel.Points
import proofs.«409672_j69483980915299_3_alg».proof.Proof.Gen.Kernel.Frame
import proofs.«409672_j69483980915299_3_alg».proof.Proof.Gen.KernelIdeal
import proofs.«409672_j69483980915299_3_alg».proof.Proof.Gen.KernelIdeal.Skeleton
import proofs.«409672_j69483980915299_3_alg».proof.Proof.Gen.KernelIdeal.Loops
import proofs.«409672_j69483980915299_3_alg».proof.Proof.Gen.KernelIdeal.Launch
import proofs.«409672_j69483980915299_3_alg».proof.Proof.Gen.KernelIdeal.Points
import proofs.«409672_j69483980915299_3_alg».proof.Proof.Gen.KernelIdeal.Frame
import proofs.«409672_j69483980915299_3_alg».proof.Proof.Gen.ReferenceIdeal
import proofs.«409672_j69483980915299_3_alg».proof.Proof.Gen.Pre_finite_inputs
import proofs.«409672_j69483980915299_3_alg».proof.Proof.Gen.KernelIdeal.Value
import proofs.«409672_j69483980915299_3_alg».proof.Proof.Gen.ReferenceIdeal.Run
import proofs.«409672_j69483980915299_3_alg».proof.Proof.Gen.ReferenceIdeal.Read
import proofs.«409672_j69483980915299_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
